-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152 : Shape := ⟨1, ![2097152]⟩
abbrev S611x4 : Shape := ⟨2, ![611, 4]⟩
abbrev S193610x4 : Shape := ⟨2, ![193610, 4]⟩
abbrev S50x8 : Shape := ⟨2, ![50, 8]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S_ : Shape := ⟨0, ![]⟩

class Facts : Prop where
  bcast_S_S611x4 : S_.BroadcastsInDim S611x4 (![] : Fin 0 → Fin S611x4.rank)
  reducesTo_S611x4_S_d0_1 : S611x4.ReducesTo [0, 1] S_
  h_S_ : 0 < S_.numel
  bcast_S_S193610x4 : S_.BroadcastsInDim S193610x4 (![] : Fin 0 → Fin S193610x4.rank)
  reducesTo_S193610x4_S_d0_1 : S193610x4.ReducesTo [0, 1] S_
  bcast_S_S50x8 : S_.BroadcastsInDim S50x8 (![] : Fin 0 → Fin S50x8.rank)
  reducesTo_S50x8_S_d0_1 : S50x8.ReducesTo [0, 1] S_
  bcast_S_S50 : S_.BroadcastsInDim S50 (![] : Fin 0 → Fin S50.rank)
  reducesTo_S50_S_d0 : S50.ReducesTo [0] S_
  bcast_S_S20x50 : S_.BroadcastsInDim S20x50 (![] : Fin 0 → Fin S20x50.rank)
  reducesTo_S20x50_S_d0_1 : S20x50.ReducesTo [0, 1] S_
  bcast_S_S20 : S_.BroadcastsInDim S20 (![] : Fin 0 → Fin S20.rank)
  reducesTo_S20_S_d0 : S20.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg6 : FVec F S20x50 .f32) (main_arg7 : FVec F S20 .f32) (main_arg8 : FVec F S1x20 .f32) (main_arg9 : FVec F S1 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S20x50 .f32 := Host.absf main_arg6
  let main_cst_6 : FVec F S_ .f32 := constant S_ .f32 0x7F800000#32
  let main_v20 : FVec F S20x50 .f32 := broadcastInDim S20x50 ![] bcast_S_S20x50 main_cst_6
  let main_v21 : IVec S20x50 1 := cmpf .olt main_v19 main_v20
  let main_c_7 : IVec S_ 1 := constantI S_ 1 1#1
  let main_v22 : IVec S_ 1 := (fun x v => Host.reduce IntOp.andi x v reducesTo_S20x50_S_d0_1 h_S_) main_v21 main_c_7
  let main_v23 : IVec S_ 1 := andi main_v18 main_v22
  let main_v24 : FVec F S20 .f32 := Host.absf main_arg7
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S1x20 .f32 := Host.absf main_arg8
  let main_cst_10 : FVec F S_ .f32 := constant S_ .f32 0x7F800000#32
  let main_v30 : FVec F S1x20 .f32 := broadcastInDim S1x20 ![] bcast_S_S1x20 main_cst_10
  let main_v31 : IVec S1x20 1 := cmpf .olt main_v29 main_v30
  let main_c_11 : IVec S_ 1 := constantI S_ 1 1#1
  let main_v32 : IVec S_ 1 := (fun x v => Host.reduce IntOp.andi x v reducesTo_S1x20_S_d0_1 h_S_) main_v31 main_c_11
  let main_v33 : IVec S_ 1 := andi main_v28 main_v32
  fn_part2 (F := F) main_arg9 main_v33

def fn {F : FTy → Type} [FloatOps F] (main_arg0 : IVec S2097152 32) (main_arg1 : IVec S2097152 32) (main_arg2 : FVec F S611x4 .f32) (main_arg3 : FVec F S193610x4 .f32) (main_arg4 : FVec F S50x8 .f32) (main_arg5 : FVec F S50 .f32) (main_arg6 : FVec F S20x50 .f32) (main_arg7 : FVec F S20 .f32) (main_arg8 : FVec F S1x20 .f32) (main_arg9 : FVec F S1 .f32) : IVec S_ 1 :=
  let main_v0 : FVec F S611x4 .f32 := Host.absf main_arg2
  let main_cst : FVec F S_ .f32 := constant S_ .f32 0x7F800000#32
  let main_v1 : FVec F S611x4 .f32 := broadcastInDim S611x4 ![] bcast_S_S611x4 main_cst
  let main_v2 : IVec S611x4 1 := cmpf .olt main_v0 main_v1
  let main_c : IVec S_ 1 := constantI S_ 1 1#1
  let main_v3 : IVec S_ 1 := (fun x v => Host.reduce IntOp.andi x v reducesTo_S611x4_S_d0_1 h_S_) main_v2 main_c
  let main_v4 : FVec F S193610x4 .f32 := Host.absf main_arg3
  let main_cst_0 : FVec F S_ .f32 := constant S_ .f32 0x7F800000#32
  let main_v5 : FVec F S193610x4 .f32 := broadcastInDim S193610x4 ![] bcast_S_S193610x4 main_cst_0
  let main_v6 : IVec S193610x4 1 := cmpf .olt main_v4 main_v5
  let main_c_1 : IVec S_ 1 := constantI S_ 1 1#1
  let main_v7 : IVec S_ 1 := (fun x v => Host.reduce IntOp.andi x v reducesTo_S193610x4_S_d0_1 h_S_) main_v6 main_c_1
  let main_v8 : IVec S_ 1 := andi main_v3 main_v7
  let main_v9 : FVec F S50x8 .f32 := Host.absf main_arg4
  let main_cst_2 : FVec F S_ .f32 := constant S_ .f32 0x7F800000#32
  let main_v10 : FVec F S50x8 .f32 := broadcastInDim S50x8 ![] bcast_S_S50x8 main_cst_2
  let main_v11 : IVec S50x8 1 := cmpf .olt main_v9 main_v10
  let main_c_3 : IVec S_ 1 := constantI S_ 1 1#1
  let main_v12 : IVec S_ 1 := (fun x v => Host.reduce IntOp.andi x v reducesTo_S50x8_S_d0_1 h_S_) main_v11 main_c_3
  let main_v13 : IVec S_ 1 := andi main_v8 main_v12
  let main_v14 : FVec F S50 .f32 := Host.absf main_arg5
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg6 main_arg7 main_arg8 main_arg9 main_v13 main_v16
-- ==== Kernel.lean ====
abbrev S2097152 : Shape := ⟨1, ![2097152]⟩
abbrev S611x4 : Shape := ⟨2, ![611, 4]⟩
abbrev S193610x4 : Shape := ⟨2, ![193610, 4]⟩
abbrev S50x8 : Shape := ⟨2, ![50, 8]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S_ : Shape := ⟨0, ![]⟩
abbrev S2097152x1 : Shape := ⟨2, ![2097152, 1]⟩
abbrev S2097152x4 : Shape := ⟨2, ![2097152, 4]⟩
abbrev S2097152x8 : Shape := ⟨2, ![2097152, 8]⟩
abbrev S8x50 : Shape := ⟨2, ![8, 50]⟩
abbrev S50x20 : Shape := ⟨2, ![50, 20]⟩
abbrev S20x1 : Shape := ⟨2, ![20, 1]⟩
abbrev S1x50 : Shape := ⟨2, ![1, 50]⟩
abbrev S1x1 : Shape := ⟨2, ![1, 1]⟩
abbrev S8192x8 : Shape := ⟨2, ![8192, 8]⟩
abbrev S8192x1 : Shape := ⟨2, ![8192, 1]⟩
abbrev S8192x50 : Shape := ⟨2, ![8192, 50]⟩
abbrev S8192x20 : Shape := ⟨2, ![8192, 20]⟩

abbrev nBuf : Space → Nat
  | .hbm => 40
  | .vmem => 10
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S611x4, .f32⟩
  | .hbm, ⟨3, _⟩ => ⟨S193610x4, .f32⟩
  | .hbm, ⟨4, _⟩ => ⟨S50x8, .f32⟩
  | .hbm, ⟨5, _⟩ => ⟨S50, .f32⟩
  | .hbm, ⟨6, _⟩ => ⟨S20x50, .f32⟩
  | .hbm, ⟨7, _⟩ => ⟨S20, .f32⟩
  | .hbm, ⟨8, _⟩ => ⟨S1x20, .f32⟩
  | .hbm, ⟨9, _⟩ => ⟨S1, .f32⟩
  | .hbm, ⟨10, _⟩ => ⟨S_, .i32⟩
  | .hbm, ⟨11, _⟩ => ⟨S2097152, .i32⟩
  | .hbm, ⟨12, _⟩ => ⟨S2097152, .i1⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S2097152, .i32⟩
  | .hbm, ⟨17, _⟩ => ⟨S2097152x1, .i32⟩
  | .hbm, ⟨18, _⟩ => ⟨S2097152x4, .f32⟩
  | .hbm, ⟨19, _⟩ => ⟨S_, .i32⟩
  | .hbm, ⟨20, _⟩ => ⟨S2097152, .i32⟩
  | .hbm, ⟨21, _⟩ => ⟨S2097152, .i1⟩
  | .hbm, ⟨22, _⟩ => ⟨S_, .i32⟩
  | .hbm, ⟨23, _⟩ => ⟨S2097152, .i32⟩
  | .hbm, ⟨24, _⟩ => ⟨S2097152, .i32⟩
  | .hbm, ⟨25, _⟩ => ⟨S2097152, .i32⟩
  | .hbm, ⟨26, _⟩ => ⟨S2097152x1, .i32⟩
  | .hbm, ⟨27, _⟩ => ⟨S2097152x4, .f32⟩
  | .hbm, ⟨28, _⟩ => ⟨S2097152x8, .f32⟩
  | .hbm, ⟨29, _⟩ => ⟨S8x50, .f32⟩
  | .hbm, ⟨30, _⟩ => ⟨S8x50, .bf16⟩
  | .hbm, ⟨31, _⟩ => ⟨S50x20, .f32⟩
  | .hbm, ⟨32, _⟩ => ⟨S50x20, .bf16⟩
  | .hbm, ⟨33, _⟩ => ⟨S20x1, .f32⟩
  | .hbm, ⟨34, _⟩ => ⟨S20x1, .bf16⟩
  | .hbm, ⟨35, _⟩ => ⟨S1x50, .f32⟩
  | .hbm, ⟨36, _⟩ => ⟨S1x20, .f32⟩
  | .hbm, ⟨37, _⟩ => ⟨S1x1, .f32⟩
  | .hbm, ⟨38, _⟩ => ⟨S2097152x1, .f32⟩
  | .hbm, ⟨39, _⟩ => ⟨S2097152, .f32⟩
  | .local _ .vmem, ⟨0, _⟩ => ⟨S8192x8, .f32⟩
  | .local _ .vmem, ⟨1, _⟩ => ⟨S8192x8, .f32⟩
  | .local _ .vmem, ⟨2, _⟩ => ⟨S8x50, .bf16⟩
  | .local _ .vmem, ⟨3, _⟩ => ⟨S1x50, .f32⟩
  | .local _ .vmem, ⟨4, _⟩ => ⟨S50x20, .bf16⟩
  | .local _ .vmem, ⟨5, _⟩ => ⟨S1x20, .f32⟩
  | .local _ .vmem, ⟨6, _⟩ => ⟨S20x1, .bf16⟩
  | .local _ .vmem, ⟨7, _⟩ => ⟨S1x1, .f32⟩
  | .local _ .vmem, ⟨8, _⟩ => ⟨S8192x1, .f32⟩
  | .local _ .vmem, ⟨9, _⟩ => ⟨S8192x1, .f32⟩
  | _, _ => ⟨S2097152, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x50 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x20 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x4_S2097152x4_S2097152x8_d1 : Shape.Concatenates [S2097152x4, S2097152x4] S2097152x8 1
  transposes_S50x8_S8x50_1_0 : S50x8.Transposes [1, 0] S8x50
  bitsLt_bf16_f32 : FTy.bits .bf16 < FTy.bits .f32
  transposes_S20x50_S50x20_1_0 : S20x50.Transposes [1, 0] S50x20
  transposes_S1x20_S20x1_1_0 : S1x20.Transposes [1, 0] S20x1
  shapeCasts_S50_S1x50 : S50.ShapeCasts S1x50
  shapeCasts_S20_S1x20 : S20.ShapeCasts S1x20
  shapeCasts_S1_S1x1 : S1.ShapeCasts S1x1
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  inb_S8x50_S8x50_0_0 : ∀ a, (![0, 0] : Fin 2 → Nat) a + S8x50.size a ≤ S8x50.size a
  h_S8x50 : 0 < S8x50.numel
  shapeCasts_S8x50_S8x50 : S8x50.ShapeCasts S8x50
  inb_S1x50_S1x50_0_0 : ∀ a, (![0, 0] : Fin 2 → Nat) a + S1x50.size a ≤ S1x50.size a
  h_S1x50 : 0 < S1x50.numel
  shapeCasts_S1x50_S1x50 : S1x50.ShapeCasts S1x50
  broadcasts_S1x50_S8192x50 : S1x50.Broadcasts S8192x50
  inb_S50x20_S50x20_0_0 : ∀ a, (![0, 0] : Fin 2 → Nat) a + S50x20.size a ≤ S50x20.size a
  h_S50x20 : 0 < S50x20.numel
  shapeCasts_S50x20_S50x20 : S50x20.ShapeCasts S50x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S8192x20 : S1x20.Broadcasts S8192x20
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  shapeCasts_S2097152x1_S2097152 : S2097152x1.ShapeCasts S2097152
  gather_S611x4_S2097152x1_S2097152x4_1_0_n_n_0_1_14_wf : GatherDims.WF S611x4 S2097152x1 S2097152x4 [1] [0] [] [0] [] 1 ![1, 4]
  gather_S193610x4_S2097152x1_S2097152x4_1_0_n_n_0_1_14_wf : GatherDims.WF S193610x4 S2097152x1 S2097152x4 [1] [0] [] [0] [] 1 ![1, 4]
  dot_S8192x8_S8x50_S8192x50_1_0_0_1_n_n_wf : DotDims.WF S8192x8 S8x50 S8192x50 [1] [0] [0] [1] [] []
  dot_S8192x50_S50x20_S8192x20_1_0_0_1_n_n_wf : DotDims.WF S8192x50 S50x20 S8192x20 [1] [0] [0] [1] [] []
  dot_S8192x20_S20x1_S8192x1_1_0_0_1_n_n_wf : DotDims.WF S8192x20 S20x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S2097152x8.size a
  hwx0_0 : ∀ i : grid0.Coords, EltTy.bits .f32 = 32 ∨ (Rect.block (s := S2097152x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x50.size a ≤ S8x50.size a
  hwx0_1 : ∀ i : grid0.Coords, EltTy.bits .bf16 = 32 ∨ (Rect.block (s := S8x50) S8x50.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x50.size a ≤ S1x50.size a
  hwx0_2 : ∀ i : grid0.Coords, EltTy.bits .f32 = 32 ∨ (Rect.block (s := S1x50) S1x50.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x20.size a ≤ S50x20.size a
  hwx0_3 : ∀ i : grid0.Coords, EltTy.bits .bf16 = 32 ∨ (Rect.block (s := S50x20) S50x20.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x20.size a ≤ S1x20.size a
  hwx0_4 : ∀ i : grid0.Coords, EltTy.bits .f32 = 32 ∨ (Rect.block (s := S1x20) S1x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x1.size a ≤ S20x1.size a
  hwx0_5 : ∀ i : grid0.Coords, EltTy.bits .bf16 = 32 ∨ (Rect.block (s := S20x1) S20x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x1.size a ≤ S2097152x1.size a
  hwx0_7 : ∀ i : grid0.Coords, EltTy.bits .f32 = 32 ∨ (Rect.block (s := S2097152x1) S8192x1.size (cc0_transform_7 i) (hinb0_7 i)).WholeWords (EltTy.packing .f32)

variable [Facts₀]

def gather_S611x4_S2097152x1_S2097152x4_1_0_n_n_0_1_14 : GatherDims S611x4 S2097152x1 S2097152x4 where
  offsetDims := [1]
  collapsedSliceDims := [0]
  operandBatchingDims := []
  startIndicesBatchingDims := []
  startIndexMap := [0]
  indexVectorDim := 1
  sliceSizes := ![1, 4]
  wf := gather_S611x4_S2097152x1_S2097152x4_1_0_n_n_0_1_14_wf
def gather_S193610x4_S2097152x1_S2097152x4_1_0_n_n_0_1_14 : GatherDims S193610x4 S2097152x1 S2097152x4 where
  offsetDims := [1]
  collapsedSliceDims := [0]
  operandBatchingDims := []
  startIndicesBatchingDims := []
  startIndexMap := [0]
  indexVectorDim := 1
  sliceSizes := ![1, 4]
  wf := gather_S193610x4_S2097152x1_S2097152x4_1_0_n_n_0_1_14_wf
def dot_S8192x8_S8x50_S8192x50_1_0_0_1_n_n : DotDims S8192x8 S8x50 S8192x50 where
  lhsContracting := [1]
  rhsContracting := [0]
  lhsNonContracting := [0]
  rhsNonContracting := [1]
  lhsBatch := []
  rhsBatch := []
  wf := dot_S8192x8_S8x50_S8192x50_1_0_0_1_n_n_wf
def dot_S8192x50_S50x20_S8192x20_1_0_0_1_n_n : DotDims S8192x50 S50x20 S8192x20 where
  lhsContracting := [1]
  rhsContracting := [0]
  lhsNonContracting := [0]
  rhsNonContracting := [1]
  lhsBatch := []
  rhsBatch := []
  wf := dot_S8192x50_S50x20_S8192x20_1_0_0_1_n_n_wf
def dot_S8192x20_S20x1_S8192x1_1_0_0_1_n_n : DotDims S8192x20 S20x1 S8192x1 where
  lhsContracting := [1]
  rhsContracting := [0]
  lhsNonContracting := [0]
  rhsNonContracting := [1]
  lhsBatch := []
  rhsBatch := []
  wf := dot_S8192x20_S20x1_S8192x1_1_0_0_1_n_n_wf

abbrev win0_0 : Pipeline.Window sig grid0 :=
  Pipeline.Window.ofSpec (Memref.whole main_v14) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S8x50.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x50.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S50x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S20x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S8192x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152 : Shape := ⟨1, ![2097152]⟩
abbrev S611x4 : Shape := ⟨2, ![611, 4]⟩
abbrev S193610x4 : Shape := ⟨2, ![193610, 4]⟩
abbrev S50x8 : Shape := ⟨2, ![50, 8]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S_ : Shape := ⟨0, ![]⟩
abbrev S2097152x1 : Shape := ⟨2, ![2097152, 1]⟩
abbrev S2097152x4 : Shape := ⟨2, ![2097152, 4]⟩
abbrev S2097152x8 : Shape := ⟨2, ![2097152, 8]⟩
abbrev S8x50 : Shape := ⟨2, ![8, 50]⟩
abbrev S2097152x50 : Shape := ⟨2, ![2097152, 50]⟩
abbrev S1x50 : Shape := ⟨2, ![1, 50]⟩
abbrev S50x20 : Shape := ⟨2, ![50, 20]⟩
abbrev S2097152x20 : Shape := ⟨2, ![2097152, 20]⟩
abbrev S20x1 : Shape := ⟨2, ![20, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S2097152, .i32⟩
  | .hbm, ⟨1, _⟩ => ⟨S2097152, .i32⟩
  | .hbm, ⟨2, _⟩ => ⟨S611x4, .f32⟩
  | .hbm, ⟨3, _⟩ => ⟨S193610x4, .f32⟩
  | .hbm, ⟨4, _⟩ => ⟨S50x8, .f32⟩
  | .hbm, ⟨5, _⟩ => ⟨S50, .f32⟩
  | .hbm, ⟨6, _⟩ => ⟨S20x50, .f32⟩
  | .hbm, ⟨7, _⟩ => ⟨S20, .f32⟩
  | .hbm, ⟨8, _⟩ => ⟨S1x20, .f32⟩
  | .hbm, ⟨9, _⟩ => ⟨S1, .f32⟩
  | .hbm, ⟨10, _⟩ => ⟨S_, .i32⟩
  | .hbm, ⟨11, _⟩ => ⟨S2097152, .i32⟩
  | .hbm, ⟨12, _⟩ => ⟨S2097152, .i1⟩
  | .hbm, ⟨13, _⟩ => ⟨S_, .i32⟩
  | .hbm, ⟨14, _⟩ => ⟨S2097152, .i32⟩
  | .hbm, ⟨15, _⟩ => ⟨S2097152, .i32⟩
  | .hbm, ⟨16, _⟩ => ⟨S2097152, .i32⟩
  | .hbm, ⟨17, _⟩ => ⟨S2097152x1, .i32⟩
  | .hbm, ⟨18, _⟩ => ⟨S2097152x4, .f32⟩
  | .hbm, ⟨19, _⟩ => ⟨S_, .i32⟩
  | .hbm, ⟨20, _⟩ => ⟨S2097152, .i32⟩
  | .hbm, ⟨21, _⟩ => ⟨S2097152, .i1⟩
  | .hbm, ⟨22, _⟩ => ⟨S_, .i32⟩
  | .hbm, ⟨23, _⟩ => ⟨S2097152, .i32⟩
  | .hbm, ⟨24, _⟩ => ⟨S2097152, .i32⟩
  | .hbm, ⟨25, _⟩ => ⟨S2097152, .i32⟩
  | .hbm, ⟨26, _⟩ => ⟨S2097152x1, .i32⟩
  | .hbm, ⟨27, _⟩ => ⟨S2097152x4, .f32⟩
  | .hbm, ⟨28, _⟩ => ⟨S2097152x8, .f32⟩
  | .hbm, ⟨29, _⟩ => ⟨S8x50, .f32⟩
  | .hbm, ⟨30, _⟩ => ⟨S2097152x50, .f32⟩
  | .hbm, ⟨31, _⟩ => ⟨S1x50, .f32⟩
  | .hbm, ⟨32, _⟩ => ⟨S2097152x50, .f32⟩
  | .hbm, ⟨33, _⟩ => ⟨S2097152x50, .f32⟩
  | .hbm, ⟨34, _⟩ => ⟨S_, .f32⟩
  | .hbm, ⟨35, _⟩ => ⟨S2097152x50, .f32⟩
  | .hbm, ⟨36, _⟩ => ⟨S2097152x50, .f32⟩
  | .hbm, ⟨37, _⟩ => ⟨S50x20, .f32⟩
  | .hbm, ⟨38, _⟩ => ⟨S2097152x20, .f32⟩
  | .hbm, ⟨39, _⟩ => ⟨S1x20, .f32⟩
  | .hbm, ⟨40, _⟩ => ⟨S2097152x20, .f32⟩
  | .hbm, ⟨41, _⟩ => ⟨S2097152x20, .f32⟩
  | .hbm, ⟨42, _⟩ => ⟨S_, .f32⟩
  | .hbm, ⟨43, _⟩ => ⟨S2097152x20, .f32⟩
  | .hbm, ⟨44, _⟩ => ⟨S2097152x20, .f32⟩
  | .hbm, ⟨45, _⟩ => ⟨S20x1, .f32⟩
  | .hbm, ⟨46, _⟩ => ⟨S2097152x1, .f32⟩
  | .hbm, ⟨47, _⟩ => ⟨S1x1, .f32⟩
  | .hbm, ⟨48, _⟩ => ⟨S2097152x1, .f32⟩
  | .hbm, ⟨49, _⟩ => ⟨S2097152x1, .f32⟩
  | .hbm, ⟨50, _⟩ => ⟨S2097152, .f32⟩
  | _, _ => ⟨S2097152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call0_cst : Ref sig .tc := ⟨.hbm, 34, rfl⟩
abbrev main_call0_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x4_S2097152x4_S2097152x8_d1 : Shape.Concatenates [S2097152x4, S2097152x4] S2097152x8 1
  transposes_S50x8_S8x50_1_0 : S50x8.Transposes [1, 0] S8x50
  bcast_S50_S1x50_1 : S50.BroadcastsInDim S1x50 (![1] : Fin 1 → Fin S1x50.rank)
  bcast_S1x50_S2097152x50_0_1 : S1x50.BroadcastsInDim S2097152x50 (![0, 1] : Fin 2 → Fin S2097152x50.rank)
  bcast_S_S2097152x50 : S_.BroadcastsInDim S2097152x50 (![] : Fin 0 → Fin S2097152x50.rank)
  transposes_S20x50_S50x20_1_0 : S20x50.Transposes [1, 0] S50x20
  bcast_S20_S1x20_1 : S20.BroadcastsInDim S1x20 (![1] : Fin 1 → Fin S1x20.rank)
  bcast_S1x20_S2097152x20_0_1 : S1x20.BroadcastsInDim S2097152x20 (![0, 1] : Fin 2 → Fin S2097152x20.rank)
  bcast_S_S2097152x20 : S_.BroadcastsInDim S2097152x20 (![] : Fin 0 → Fin S2097152x20.rank)
  transposes_S1x20_S20x1_1_0 : S1x20.Transposes [1, 0] S20x1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  shapeCasts_S2097152x1_S2097152 : S2097152x1.ShapeCasts S2097152
  gather_S611x4_S2097152x1_S2097152x4_1_0_n_n_0_1_14_wf : GatherDims.WF S611x4 S2097152x1 S2097152x4 [1] [0] [] [0] [] 1 ![1, 4]
  gather_S193610x4_S2097152x1_S2097152x4_1_0_n_n_0_1_14_wf : GatherDims.WF S193610x4 S2097152x1 S2097152x4 [1] [0] [] [0] [] 1 ![1, 4]
  dot_S2097152x8_S8x50_S2097152x50_1_0_0_1_n_n_wf : DotDims.WF S2097152x8 S8x50 S2097152x50 [1] [0] [0] [1] [] []
  dot_S2097152x50_S50x20_S2097152x20_1_0_0_1_n_n_wf : DotDims.WF S2097152x50 S50x20 S2097152x20 [1] [0] [0] [1] [] []
  dot_S2097152x20_S20x1_S2097152x1_1_0_0_1_n_n_wf : DotDims.WF S2097152x20 S20x1 S2097152x1 [1] [0] [0] [1] [] []

variable [Facts₀]

def gather_S611x4_S2097152x1_S2097152x4_1_0_n_n_0_1_14 : GatherDims S611x4 S2097152x1 S2097152x4 where
  offsetDims := [1]
  collapsedSliceDims := [0]
  operandBatchingDims := []
  startIndicesBatchingDims := []
  startIndexMap := [0]
  indexVectorDim := 1
  sliceSizes := ![1, 4]
  wf := gather_S611x4_S2097152x1_S2097152x4_1_0_n_n_0_1_14_wf
def gather_S193610x4_S2097152x1_S2097152x4_1_0_n_n_0_1_14 : GatherDims S193610x4 S2097152x1 S2097152x4 where
  offsetDims := [1]
  collapsedSliceDims := [0]
  operandBatchingDims := []
  startIndicesBatchingDims := []
  startIndexMap := [0]
  indexVectorDim := 1
  sliceSizes := ![1, 4]
  wf := gather_S193610x4_S2097152x1_S2097152x4_1_0_n_n_0_1_14_wf
def dot_S2097152x8_S8x50_S2097152x50_1_0_0_1_n_n : DotDims S2097152x8 S8x50 S2097152x50 where
  lhsContracting := [1]
  rhsContracting := [0]
  lhsNonContracting := [0]
  rhsNonContracting := [1]
  lhsBatch := []
  rhsBatch := []
  wf := dot_S2097152x8_S8x50_S2097152x50_1_0_0_1_n_n_wf
def dot_S2097152x50_S50x20_S2097152x20_1_0_0_1_n_n : DotDims S2097152x50 S50x20 S2097152x20 where
  lhsContracting := [1]
  rhsContracting := [0]
  lhsNonContracting := [0]
  rhsNonContracting := [1]
  lhsBatch := []
  rhsBatch := []
  wf := dot_S2097152x50_S50x20_S2097152x20_1_0_0_1_n_n_wf
def dot_S2097152x20_S20x1_S2097152x1_1_0_0_1_n_n : DotDims S2097152x20 S20x1 S2097152x1 where
  lhsContracting := [1]
  rhsContracting := [0]
  lhsNonContracting := [0]
  rhsNonContracting := [1]
  lhsBatch := []
  rhsBatch := []
  wf := dot_S2097152x20_S20x1_S2097152x1_1_0_0_1_n_n_wf

class Facts : Prop extends Facts₀ where

variable [Facts]
-- ==== Proof.KernelArrays.lean ====
/-
  What the region finds in its operands' arrays.

  Before the region the program gathers one row of the user table and one of the item table per sample and puts
  them side by side (the feature matrix, `feat`; the index arithmetic in front of each gather is the usual
  wrap of a negative index), transposes each weight matrix (the change of format after it is the identity at the
  ideal instance), and gives each bias a leading unit axis. Read at an entry: the transposed weight at (a, j) is
  the weight at (j, a); the reshaped bias at (0, j) is the bias at j. The feature matrix is never opened.
-/
import proofs.«110660_j790273982929_1_alg».proof.Proof.Gen.KernelIdeal.Frame
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A table's rows gathered at the samples' indices, a negative index wrapped by the table's height `n` first. -/
def wrap (n : BitVec 32) (ids : (⟨S2097152, .i32⟩ : BufTy).Contents (Elt Ideal)) : (⟨S2097152x1, .i32⟩ : BufTy).Contents (Elt Ideal) :=
  broadcastInDim S2097152x1 ![0] bcast_S2097152_S2097152x1_0
    (select (cmpi .slt ids (broadcastInDim S2097152 ![] bcast_S_S2097152 (constantI S_ 32 0#32)))
      (addi ids (broadcastInDim S2097152 ![] bcast_S_S2097152 (constantI S_ 32 n))) ids)

/-- The feature matrix: per sample, its user's table row beside its item's table row. -/
def feat (users items : (⟨S2097152, .i32⟩ : BufTy).Contents (Elt Ideal))
    (eU : (⟨S611x4, .f32⟩ : BufTy).Contents (Elt Ideal)) (eV : (⟨S193610x4, .f32⟩ : BufTy).Contents (Elt Ideal)) :
    (⟨S2097152x8, .f32⟩ : BufTy).Contents (Elt Ideal) :=
  concatenate S2097152x8 1
    [⟨S2097152x4, Host.gather gather_S611x4_S2097152x1_S2097152x4_1_0_n_n_0_1_14 eU (wrap 611#32 users)⟩,
     ⟨S2097152x4, Host.gather gather_S193610x4_S2097152x1_S2097152x4_1_0_n_n_0_1_14 eV (wrap 193610#32 items)⟩]
    concatenates_S2097152x4_S2097152x4_S2097152x8_d1

/-! ## The operands' arrays as the region finds them, each named at its literal type -/

/-- The feature matrix's array. -/
def featArr (c : Dev nD) : S2097152x8.Idx → EReal := V m c main_v14
/-- The first layer's transposed weights. -/
def w1tArr (c : Dev nD) : S8x50.Idx → EReal := V m c main_v16
/-- The first layer's bias as a one-row matrix. -/
def b1rArr (c : Dev nD) : S1x50.Idx → EReal := V m c main_v21
/-- The second layer's transposed weights. -/
def w2tArr (c : Dev nD) : S50x20.Idx → EReal := V m c main_v18
/-- The second layer's bias as a one-row matrix. -/
def b2rArr (c : Dev nD) : S1x20.Idx → EReal := V m c main_v22
/-- The last layer's transposed weights. -/
def w3tArr (c : Dev nD) : S20x1.Idx → EReal := V m c main_v20
/-- The last layer's bias as a one-by-one matrix. -/
def b3rArr (c : Dev nD) : S1x1.Idx → EReal := V m c main_v23

/-! ## What each holds -/

set_option maxRecDepth 8192 in
set_option maxHeartbeats 2000000 in
theorem V_feat (c : Dev nD) : featArr m c = feat (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v14) = _
  after_results_simp <;> rfl

theorem V_w1t (c : Dev nD) : w1tArr m c
    = truncf (F := Ideal) .bf16 (transpose S8x50 [1, 0] (m ((c : Thread nD τ).loc main_arg4)) transposes_S50x8_S8x50_1_0) bitsLt_bf16_f32 := by
  show StableHlo.after hostOps0 (fun b => m (c, b)) (Proc.devRef .tc main_v16) = _
  after_results <;> rfl

theorem V_w2t (c : Dev nD) : w2tArr m c
    = truncf (F := Ideal) .bf16 (transpose S50x20 [1, 0] (m ((c : Thread nD τ).loc main_arg6)) transposes_S20x50_S50x20_1_0) bitsLt_bf16_f32 := by
  show StableHlo.after hostOps0 (fun b => m (c, b)) (Proc.devRef .tc main_v18) = _
  after_results <;> rfl

theorem V_w3t (c : Dev nD) : w3tArr m c
    = truncf (F := Ideal) .bf16 (transpose S20x1 [1, 0] (m ((c : Thread nD τ).loc main_arg8)) transposes_S1x20_S20x1_1_0) bitsLt_bf16_f32 := by
  show StableHlo.after hostOps0 (fun b => m (c, b)) (Proc.devRef .tc main_v20) = _
  after_results <;> rfl

theorem V_b1r (c : Dev nD) : b1rArr m c = shapeCast S1x50 (m ((c : Thread nD τ).loc main_arg5)) shapeCasts_S50_S1x50 := by
  show StableHlo.after hostOps0 (fun b => m (c, b)) (Proc.devRef .tc main_v21) = _
  after_results <;> rfl

theorem V_b2r (c : Dev nD) : b2rArr m c = shapeCast S1x20 (m ((c : Thread nD τ).loc main_arg7)) shapeCasts_S20_S1x20 := by
  show StableHlo.after hostOps0 (fun b => m (c, b)) (Proc.devRef .tc main_v22) = _
  after_results <;> rfl

theorem V_b3r (c : Dev nD) : b3rArr m c = shapeCast S1x1 (m ((c : Thread nD τ).loc main_arg9)) shapeCasts_S1_S1x1 := by
  show StableHlo.after hostOps0 (fun b => m (c, b)) (Proc.devRef .tc main_v23) = _
  after_results <;> rfl

/-! ## Read at an entry -/

/-- The first layer's transposed weights at (a, j) are the weights at (j, a). -/
theorem w1t_apply (c : Dev nD) (a : Fin 8) (j : Fin 50) :
    w1tArr m c (ix2 a j) = ((m ((c : Thread nD τ).loc main_arg4)) : S50x8.Idx → EReal) (ix2 j a) := by
  rw [V_w1t]
  exact transpose_ix2_apply _ _ a j
theorem w2t_apply (c : Dev nD) (j : Fin 50) (k : Fin 20) :
    w2tArr m c (ix2 j k) = ((m ((c : Thread nD τ).loc main_arg6)) : S20x50.Idx → EReal) (ix2 k j) := by
  rw [V_w2t]
  exact transpose_ix2_apply _ _ j k
theorem w3t_apply (c : Dev nD) (k : Fin 20) (q : Fin 1) :
    w3tArr m c (ix2 k q) = ((m ((c : Thread nD τ).loc main_arg8)) : S1x20.Idx → EReal) (ix2 q k) := by
  rw [V_w3t]
  exact transpose_ix2_apply _ _ k q

/-- The first layer's bias as a one-row matrix, at (u, j), is the bias at j. -/
theorem b1r_apply (c : Dev nD) (u : Fin 1) (j : Fin 50) :
    b1rArr m c (ix2 u j) = ((m ((c : Thread nD τ).loc main_arg5)) : S50.Idx → EReal) (ix1 j) := by
  rw [V_b1r]
  exact shapeCast_a_1a_apply _ _ u j
theorem b2r_apply (c : Dev nD) (u : Fin 1) (k : Fin 20) :
    b2rArr m c (ix2 u k) = ((m ((c : Thread nD τ).loc main_arg7)) : S20.Idx → EReal) (ix1 k) := by
  rw [V_b2r]
  exact shapeCast_a_1a_apply _ _ u k
theorem b3r_apply (c : Dev nD) (u : Fin 1) (q : Fin 1) :
    b3rArr m c (ix2 u q) = ((m ((c : Thread nD τ).loc main_arg9)) : S1.Idx → EReal) (ix1 q) := by
  rw [V_b3r]
  exact shapeCast_a_1a_apply _ _ u q

end Cert.KernelIdeal.Arrays

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.KernelDots.lean ====
/-
  The kernel's three matrix products, read at an entry.

  Each `tpu.matmul` of the body contracts the left operand's second axis with the right operand's first and
  starts from a zero accumulator, so at the ideal instance its entry (p, j) is the sum over the contracted
  coordinate `a` of `l (p, a) * r (a, j)`. Per product, four coordinate facts about its dimension numbers (which
  coordinate of each operand index is the output's, which is the contracted one) feed the general lemma.
-/
import proofs.«110660_j790273982929_1_alg».proof.Proof.Gen.KernelIdeal
import proofs.«110660_j790273982929_1_alg».proof.Proof.LibDot2

noncomputable section

namespace Cert.KernelIdeal.Dots

open Cert.KernelIdeal Cert.KernelIdeal.Gen Idealize.ShloMosaic Idealize.ShloMosaic.ValueIdx

/-! ## Product 1: features by the first layer's transposed weights ([8192, 8] by [8, 50]) -/

theorem lhs1_0 (i : S8192x50.Idx) (q : dot_S8192x8_S8x50_S8192x50_1_0_0_1_n_n.contr.Idx) :
    (dot_S8192x8_S8x50_S8192x50_1_0_0_1_n_n.lhsIdx i q 0).val = (i 0).val := by
  unfold DotDims.lhsIdx
  rw [dif_neg (show ¬(0 : Fin S8192x8.rank) ∈ dot_S8192x8_S8x50_S8192x50_1_0_0_1_n_n.lhsBatch by decide), dif_pos (show (0 : Fin S8192x8.rank) ∈ dot_S8192x8_S8x50_S8192x50_1_0_0_1_n_n.lhsNonContracting by decide)]
  rfl
theorem lhs1_1 (i : S8192x50.Idx) (q : dot_S8192x8_S8x50_S8192x50_1_0_0_1_n_n.contr.Idx) :
    (dot_S8192x8_S8x50_S8192x50_1_0_0_1_n_n.lhsIdx i q 1).val = (q ⟨0, by decide⟩).val :=
  dot_S8192x8_S8x50_S8192x50_1_0_0_1_n_n.lhsIdx_val_of_single rfl i q
theorem rhs1_0 (i : S8192x50.Idx) (q : dot_S8192x8_S8x50_S8192x50_1_0_0_1_n_n.contr.Idx) :
    (dot_S8192x8_S8x50_S8192x50_1_0_0_1_n_n.rhsIdx i q 0).val = (q ⟨0, by decide⟩).val :=
  dot_S8192x8_S8x50_S8192x50_1_0_0_1_n_n.rhsIdx_val_of_single rfl i q
theorem rhs1_1 (i : S8192x50.Idx) (q : dot_S8192x8_S8x50_S8192x50_1_0_0_1_n_n.contr.Idx) :
    (dot_S8192x8_S8x50_S8192x50_1_0_0_1_n_n.rhsIdx i q 1).val = (i 1).val := by
  unfold DotDims.rhsIdx
  rw [dif_neg (show ¬(1 : Fin S8x50.rank) ∈ dot_S8192x8_S8x50_S8192x50_1_0_0_1_n_n.rhsBatch by decide), dif_pos (show (1 : Fin S8x50.rank) ∈ dot_S8192x8_S8x50_S8192x50_1_0_0_1_n_n.rhsNonContracting by decide)]
  rfl

/-- Entry (p, j) of product 1 into the zero accumulator: the sum over the 8 contracted coordinates. -/
theorem mm1_apply {φ₁ φ₂ : FTy} (l : FVec Ideal S8192x8 φ₁) (r : FVec Ideal S8x50 φ₂) (p : Fin 8192) (j : Fin 50) :
    matmul dot_S8192x8_S8x50_S8192x50_1_0_0_1_n_n none l r (constant (F := Ideal) S8192x50 .f32 0x00000000#32) (ix2 p j)
      = ∑ a : Fin 8, l (ix2 p a) * r (ix2 a j) :=
  Cert.Lib.Dot2.matmul_zero_ix2 dot_S8192x8_S8x50_S8192x50_1_0_0_1_n_n none rfl rfl lhs1_0 lhs1_1 rhs1_0 rhs1_1 l r p j

/-! ## Product 2: first hidden layer by the second layer's transposed weights ([8192, 50] by [50, 20]) -/

theorem lhs2_0 (i : S8192x20.Idx) (q : dot_S8192x50_S50x20_S8192x20_1_0_0_1_n_n.contr.Idx) :
    (dot_S8192x50_S50x20_S8192x20_1_0_0_1_n_n.lhsIdx i q 0).val = (i 0).val := by
  unfold DotDims.lhsIdx
  rw [dif_neg (show ¬(0 : Fin S8192x50.rank) ∈ dot_S8192x50_S50x20_S8192x20_1_0_0_1_n_n.lhsBatch by decide), dif_pos (show (0 : Fin S8192x50.rank) ∈ dot_S8192x50_S50x20_S8192x20_1_0_0_1_n_n.lhsNonContracting by decide)]
  rfl
theorem lhs2_1 (i : S8192x20.Idx) (q : dot_S8192x50_S50x20_S8192x20_1_0_0_1_n_n.contr.Idx) :
    (dot_S8192x50_S50x20_S8192x20_1_0_0_1_n_n.lhsIdx i q 1).val = (q ⟨0, by decide⟩).val :=
  dot_S8192x50_S50x20_S8192x20_1_0_0_1_n_n.lhsIdx_val_of_single rfl i q
theorem rhs2_0 (i : S8192x20.Idx) (q : dot_S8192x50_S50x20_S8192x20_1_0_0_1_n_n.contr.Idx) :
    (dot_S8192x50_S50x20_S8192x20_1_0_0_1_n_n.rhsIdx i q 0).val = (q ⟨0, by decide⟩).val :=
  dot_S8192x50_S50x20_S8192x20_1_0_0_1_n_n.rhsIdx_val_of_single rfl i q
theorem rhs2_1 (i : S8192x20.Idx) (q : dot_S8192x50_S50x20_S8192x20_1_0_0_1_n_n.contr.Idx) :
    (dot_S8192x50_S50x20_S8192x20_1_0_0_1_n_n.rhsIdx i q 1).val = (i 1).val := by
  unfold DotDims.rhsIdx
  rw [dif_neg (show ¬(1 : Fin S50x20.rank) ∈ dot_S8192x50_S50x20_S8192x20_1_0_0_1_n_n.rhsBatch by decide), dif_pos (show (1 : Fin S50x20.rank) ∈ dot_S8192x50_S50x20_S8192x20_1_0_0_1_n_n.rhsNonContracting by decide)]
  rfl

/-- Entry (p, j) of product 2 into the zero accumulator: the sum over the 50 contracted coordinates. -/
theorem mm2_apply {φ₁ φ₂ : FTy} (l : FVec Ideal S8192x50 φ₁) (r : FVec Ideal S50x20 φ₂) (p : Fin 8192) (j : Fin 20) :
    matmul dot_S8192x50_S50x20_S8192x20_1_0_0_1_n_n none l r (constant (F := Ideal) S8192x20 .f32 0x00000000#32) (ix2 p j)
      = ∑ a : Fin 50, l (ix2 p a) * r (ix2 a j) :=
  Cert.Lib.Dot2.matmul_zero_ix2 dot_S8192x50_S50x20_S8192x20_1_0_0_1_n_n none rfl rfl lhs2_0 lhs2_1 rhs2_0 rhs2_1 l r p j

/-! ## Product 3: second hidden layer by the last layer's transposed weights ([8192, 20] by [20, 1]) -/

theorem lhs3_0 (i : S8192x1.Idx) (q : dot_S8192x20_S20x1_S8192x1_1_0_0_1_n_n.contr.Idx) :
    (dot_S8192x20_S20x1_S8192x1_1_0_0_1_n_n.lhsIdx i q 0).val = (i 0).val := by
  unfold DotDims.lhsIdx
  rw [dif_neg (show ¬(0 : Fin S8192x20.rank) ∈ dot_S8192x20_S20x1_S8192x1_1_0_0_1_n_n.lhsBatch by decide), dif_pos (show (0 : Fin S8192x20.rank) ∈ dot_S8192x20_S20x1_S8192x1_1_0_0_1_n_n.lhsNonContracting by decide)]
  rfl
theorem lhs3_1 (i : S8192x1.Idx) (q : dot_S8192x20_S20x1_S8192x1_1_0_0_1_n_n.contr.Idx) :
    (dot_S8192x20_S20x1_S8192x1_1_0_0_1_n_n.lhsIdx i q 1).val = (q ⟨0, by decide⟩).val :=
  dot_S8192x20_S20x1_S8192x1_1_0_0_1_n_n.lhsIdx_val_of_single rfl i q
theorem rhs3_0 (i : S8192x1.Idx) (q : dot_S8192x20_S20x1_S8192x1_1_0_0_1_n_n.contr.Idx) :
    (dot_S8192x20_S20x1_S8192x1_1_0_0_1_n_n.rhsIdx i q 0).val = (q ⟨0, by decide⟩).val :=
  dot_S8192x20_S20x1_S8192x1_1_0_0_1_n_n.rhsIdx_val_of_single rfl i q
theorem rhs3_1 (i : S8192x1.Idx) (q : dot_S8192x20_S20x1_S8192x1_1_0_0_1_n_n.contr.Idx) :
    (dot_S8192x20_S20x1_S8192x1_1_0_0_1_n_n.rhsIdx i q 1).val = (i 1).val := by
  unfold DotDims.rhsIdx
  rw [dif_neg (show ¬(1 : Fin S20x1.rank) ∈ dot_S8192x20_S20x1_S8192x1_1_0_0_1_n_n.rhsBatch by decide), dif_pos (show (1 : Fin S20x1.rank) ∈ dot_S8192x20_S20x1_S8192x1_1_0_0_1_n_n.rhsNonContracting by decide)]
  rfl

/-- Entry (p, j) of product 3 into the zero accumulator: the sum over the 20 contracted coordinates. -/
theorem mm3_apply {φ₁ φ₂ : FTy} (l : FVec Ideal S8192x20 φ₁) (r : FVec Ideal S20x1 φ₂) (p : Fin 8192) (j : Fin 1) :
    matmul dot_S8192x20_S20x1_S8192x1_1_0_0_1_n_n none l r (constant (F := Ideal) S8192x1 .f32 0x00000000#32) (ix2 p j)
      = ∑ a : Fin 20, l (ix2 p a) * r (ix2 a j) :=
  Cert.Lib.Dot2.matmul_zero_ix2 dot_S8192x20_S20x1_S8192x1_1_0_0_1_n_n none rfl rfl lhs3_0 lhs3_1 rhs3_0 rhs3_1 l r p j

end Cert.KernelIdeal.Dots

end
-- ==== Proof.Mlp.lean ====
/-
  The function both programs compute, on the extended reals.

  Each sample is a row of 8 features (a 4-wide row of the user table beside a 4-wide row of the item table). The
  network is three dense layers, 8 → 50 → 20 → 1, with a rectifier after the first two: a dense layer's unit `j`
  is the inner product of its input with row `j` of the weight matrix, plus entry `j` of the bias; the rectifier
  is the maximum with zero. The score of a sample is the one unit of the last layer. Weight matrices are indexed
  [unit, input], as the arguments are given; no transposed copy appears here.
-/
import Idealize.ShloMosaic.Lib.ValueIdx
import Idealize.ShloMosaic.PureOps.Ideal

noncomputable section

namespace Cert.Mlp

open Idealize.ShloMosaic Idealize.ShloMosaic.ValueIdx

/-- The rectifier: the maximum with the f32 zero (kept as its word: both programs carry the same word). -/
def relu (z : EReal) : EReal := max z (Ideal.ofBits .f32 0x00000000#32)

/-- Unit `j` of a dense layer with `n` units on `k` inputs: `∑ a, x a * W (j, a) + b j`. -/
def dense {k n : Nat} (x : Fin k → EReal) (W : (⟨2, ![n, k]⟩ : Shape).Idx → EReal)
    (b : (⟨1, ![n]⟩ : Shape).Idx → EReal) (j : Fin n) : EReal :=
  (∑ a : Fin k, x a * W (ix2 j a)) + b (ix1 j)

/-- The network on one sample's 8 features. -/
def net (x : Fin 8 → EReal)
    (W1 : (⟨2, ![50, 8]⟩ : Shape).Idx → EReal) (b1 : (⟨1, ![50]⟩ : Shape).Idx → EReal)
    (W2 : (⟨2, ![20, 50]⟩ : Shape).Idx → EReal) (b2 : (⟨1, ![20]⟩ : Shape).Idx → EReal)
    (W3 : (⟨2, ![1, 20]⟩ : Shape).Idx → EReal) (b3 : (⟨1, ![1]⟩ : Shape).Idx → EReal) : EReal :=
  dense (fun k => relu (dense (fun j => relu (dense x W1 b1 j)) W2 b2 k)) W3 b3 (0 : Fin 1)

/-- The scores of the whole batch: entry `i` is the network on row `i` of the feature matrix `X`. -/
def scores (X : (⟨2, ![2097152, 8]⟩ : Shape).Idx → EReal)
    (W1 : (⟨2, ![50, 8]⟩ : Shape).Idx → EReal) (b1 : (⟨1, ![50]⟩ : Shape).Idx → EReal)
    (W2 : (⟨2, ![20, 50]⟩ : Shape).Idx → EReal) (b2 : (⟨1, ![20]⟩ : Shape).Idx → EReal)
    (W3 : (⟨2, ![1, 20]⟩ : Shape).Idx → EReal) (b3 : (⟨1, ![1]⟩ : Shape).Idx → EReal) :
    (⟨1, ![2097152]⟩ : Shape).Idx → EReal :=
  fun i => net (fun a => X (ix2 (i 0) a)) W1 b1 W2 b2 W3 b3

end Cert.Mlp

end
-- ==== Proof.KernelRow.lean ====
/-
  The kernel body's arithmetic on one row of a block.

  The body loads a block of 8192 feature rows and the resident operands (the three weight matrices, already
  transposed to [input, unit], and the three biases as one-row matrices), and stores one value per row. At the
  ideal instance a change of float format is the identity, so the stored value at row `p` is

    ∑ k, relu (∑ j, relu (∑ a, x (p, a) * w1t (a, j) + b1r (0, j)) * w2t (j, k) + b2r (0, k)) * w3t (k, q) + b3r (0, q)

  with `q` the one column of the output block: each matrix product is its plain contraction sum, each bias row is
  broadcast down the 8192 rows, and the rectifier is the maximum with zero.
-/
import proofs.«110660_j790273982929_1_alg».proof.Proof.Gen.KernelIdeal.Skeleton
import proofs.«110660_j790273982929_1_alg».proof.Proof.KernelDots
import proofs.«110660_j790273982929_1_alg».proof.Proof.Mlp
import Idealize.ShloMosaic.Lib.Pipeline.Value
import Idealize.ShloMosaic.Lib.ValueLayout

noncomputable section

namespace Cert.KernelIdeal.Row

open Cert.KernelIdeal Cert.KernelIdeal.Gen Cert.KernelIdeal.Dots Idealize.ShloMosaic Idealize.ShloMosaic.ValueIdx Cert.Mlp

/-- The stored value at row `p` (column `q`) of the output block, from the loaded blocks. -/
theorem pay_apply (x : Vec Ideal S8192x8 .f32) (w1t : Vec Ideal S8x50 .bf16) (b1r : Vec Ideal S1x50 .f32)
    (w2t : Vec Ideal S50x20 .bf16) (b2r : Vec Ideal S1x20 .f32) (w3t : Vec Ideal S20x1 .bf16) (b3r : Vec Ideal S1x1 .f32)
    (p : Fin 8192) (q : Fin 1) :
    k0_pay1 (F := Ideal) x w1t b1r w2t b2r w3t b3r (ix2 p q)
      = (∑ k : Fin 20, relu ((∑ j : Fin 50, relu ((∑ a : Fin 8, x (ix2 p a) * w1t (ix2 a j)) + b1r (ix2 (0 : Fin 1) j))
            * w2t (ix2 j k)) + b2r (ix2 (0 : Fin 1) k)) * w3t (ix2 k q)) + b3r (ix2 (0 : Fin 1) q) := by
  unfold k0_pay1
  simp only [shapeCast_self]
  rw [addf_apply, mm3_apply, broadcastTo_1b_ab_apply]
  simp only [truncf_apply, maximumf_apply, addf_apply, broadcast_apply, mm2_apply, mm1_apply, broadcastTo_1b_ab_apply]
  rfl

end Cert.KernelIdeal.Row

end
-- ==== Proof.KernelBlocks.lean ====
/-
  From the blocks to the output array.

  The grid has 256 points; point `t` fetches rows 8192·t … 8192·t + 8191 of the feature matrix, keeps the six
  resident operands whole (their block index never moves), and writes back rows 8192·t … of the one-column output.
  So what point `t` writes back is block `t` of ONE function of the operands' arrays: row `r` of the output is the
  body's arithmetic on row `r` of the feature matrix (`rowScore`). The 256 blocks tile the 2097152 rows (row `r`
  lies in block `r / 8192`), so after the run the output array is that function.
-/
import proofs.«110660_j790273982929_1_alg».proof.Proof.KernelArrays
import proofs.«110660_j790273982929_1_alg».proof.Proof.KernelRow
import Idealize.ShloMosaic.Lib.Pipeline.Value

noncomputable section

namespace Cert.KernelIdeal.Blocks

open Cert.KernelIdeal Cert.KernelIdeal.Gen Cert.KernelIdeal.Row Cert.KernelIdeal.Arrays Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ)

theorem hz : (![0, 0] : Fin 2 → Nat) = fun _ => 0 := funext fun a => by fin_cases a <;> rfl

/-! ## The block indices, decided over the grid -/

/-- The feature window's block index at point `t` is (t, 0). -/
theorem idx0 : ∀ t : Fin cfg0.N, win0_0.index t (0 : Fin 2) = t.val ∧ win0_0.index t (1 : Fin 2) = 0 :=
  (by decide +kernel : ∀ t : Fin grid0.N, _)
/-- The output window's block index at point `t` is (t, 0). -/
theorem idx7 : ∀ t : Fin cfg0.N, win0_7.index t (0 : Fin 2) = t.val ∧ win0_7.index t (1 : Fin 2) = 0 :=
  (by decide +kernel : ∀ t : Fin grid0.N, _)
/-- Window 1 (the first layer's transposed weights) stays at block (0, 0). -/
theorem idx1 : ∀ t : Fin cfg0.N, win0_1.index t (0 : Fin 2) = 0 ∧ win0_1.index t (1 : Fin 2) = 0 :=
  (by decide +kernel : ∀ t : Fin grid0.N, _)
/-- Window 2 (the first layer's bias row) stays at block (0, 0). -/
theorem idx2 : ∀ t : Fin cfg0.N, win0_2.index t (0 : Fin 2) = 0 ∧ win0_2.index t (1 : Fin 2) = 0 :=
  (by decide +kernel : ∀ t : Fin grid0.N, _)
/-- Window 3 (the second layer's transposed weights) stays at block (0, 0). -/
theorem idx3 : ∀ t : Fin cfg0.N, win0_3.index t (0 : Fin 2) = 0 ∧ win0_3.index t (1 : Fin 2) = 0 :=
  (by decide +kernel : ∀ t : Fin grid0.N, _)
/-- Window 4 (the second layer's bias row) stays at block (0, 0). -/
theorem idx4 : ∀ t : Fin cfg0.N, win0_4.index t (0 : Fin 2) = 0 ∧ win0_4.index t (1 : Fin 2) = 0 :=
  (by decide +kernel : ∀ t : Fin grid0.N, _)
/-- Window 5 (the last layer's transposed weights) stays at block (0, 0). -/
theorem idx5 : ∀ t : Fin cfg0.N, win0_5.index t (0 : Fin 2) = 0 ∧ win0_5.index t (1 : Fin 2) = 0 :=
  (by decide +kernel : ∀ t : Fin grid0.N, _)
/-- Window 6 (the last layer's bias) stays at block (0, 0). -/
theorem idx6 : ∀ t : Fin cfg0.N, win0_6.index t (0 : Fin 2) = 0 ∧ win0_6.index t (1 : Fin 2) = 0 :=
  (by decide +kernel : ∀ t : Fin grid0.N, _)

/-! ## Each input block, read off its array -/

/-- Row `p` of the feature block at point `t` is row `8192·t + p` of the feature matrix. -/
theorem feat_blk (c : Dev nD) (t : Fin cfg0.N) (p : Fin 8192) (a : Fin 8) (r : Fin 2097152) (hr : r.val = t.val * 8192 + p.val) :
    (iblk m c 0 t : Vec Ideal S8192x8 .f32) (ix2 p a) = featArr m c (ix2 r a) := by
  obtain ⟨e0, e1⟩ := idx0 t
  unfold iblk
  rw [View.read_apply]
  show V m c main_v14 _ = V m c main_v14 _
  congr 1
  funext d
  apply Fin.ext
  match d with
  | ⟨0, _⟩ => show win0_0.index t (0 : Fin 2) * 8192 + 1 * p.val = r.val; rw [e0, hr]; omega
  | ⟨1, _⟩ => show win0_0.index t (1 : Fin 2) * 8 + 1 * a.val = a.val; rw [e1]; omega

/-- The block of window 1 (the first layer's transposed weights) is its whole array, at every point. -/
theorem res1_blk (c : Dev nD) (t : Fin cfg0.N) (a : Fin 8) (b : Fin 50) :
    (iblk m c 1 t : Vec Ideal S8x50 .bf16) (ix2 a b) = w1tArr m c (ix2 a b) := by
  obtain ⟨e0, e1⟩ := idx1 t
  unfold iblk
  rw [View.read_apply]
  show V m c main_v16 _ = V m c main_v16 _
  congr 1
  funext d
  apply Fin.ext
  match d with
  | ⟨0, _⟩ => show win0_1.index t (0 : Fin 2) * 8 + 1 * a.val = a.val; rw [e0]; omega
  | ⟨1, _⟩ => show win0_1.index t (1 : Fin 2) * 50 + 1 * b.val = b.val; rw [e1]; omega

/-- The block of window 2 (the first layer's bias row) is its whole array, at every point. -/
theorem res2_blk (c : Dev nD) (t : Fin cfg0.N) (a : Fin 1) (b : Fin 50) :
    (iblk m c 2 t : Vec Ideal S1x50 .f32) (ix2 a b) = b1rArr m c (ix2 a b) := by
  obtain ⟨e0, e1⟩ := idx2 t
  unfold iblk
  rw [View.read_apply]
  show V m c main_v21 _ = V m c main_v21 _
  congr 1
  funext d
  apply Fin.ext
  match d with
  | ⟨0, _⟩ => show win0_2.index t (0 : Fin 2) * 1 + 1 * a.val = a.val; rw [e0]; omega
  | ⟨1, _⟩ => show win0_2.index t (1 : Fin 2) * 50 + 1 * b.val = b.val; rw [e1]; omega

/-- The block of window 3 (the second layer's transposed weights) is its whole array, at every point. -/
theorem res3_blk (c : Dev nD) (t : Fin cfg0.N) (a : Fin 50) (b : Fin 20) :
    (iblk m c 3 t : Vec Ideal S50x20 .bf16) (ix2 a b) = w2tArr m c (ix2 a b) := by
  obtain ⟨e0, e1⟩ := idx3 t
  unfold iblk
  rw [View.read_apply]
  show V m c main_v18 _ = V m c main_v18 _
  congr 1
  funext d
  apply Fin.ext
  match d with
  | ⟨0, _⟩ => show win0_3.index t (0 : Fin 2) * 50 + 1 * a.val = a.val; rw [e0]; omega
  | ⟨1, _⟩ => show win0_3.index t (1 : Fin 2) * 20 + 1 * b.val = b.val; rw [e1]; omega

/-- The block of window 4 (the second layer's bias row) is its whole array, at every point. -/
theorem res4_blk (c : Dev nD) (t : Fin cfg0.N) (a : Fin 1) (b : Fin 20) :
    (iblk m c 4 t : Vec Ideal S1x20 .f32) (ix2 a b) = b2rArr m c (ix2 a b) := by
  obtain ⟨e0, e1⟩ := idx4 t
  unfold iblk
  rw [View.read_apply]
  show V m c main_v22 _ = V m c main_v22 _
  congr 1
  funext d
  apply Fin.ext
  match d with
  | ⟨0, _⟩ => show win0_4.index t (0 : Fin 2) * 1 + 1 * a.val = a.val; rw [e0]; omega
  | ⟨1, _⟩ => show win0_4.index t (1 : Fin 2) * 20 + 1 * b.val = b.val; rw [e1]; omega

/-- The block of window 5 (the last layer's transposed weights) is its whole array, at every point. -/
theorem res5_blk (c : Dev nD) (t : Fin cfg0.N) (a : Fin 20) (b : Fin 1) :
    (iblk m c 5 t : Vec Ideal S20x1 .bf16) (ix2 a b) = w3tArr m c (ix2 a b) := by
  obtain ⟨e0, e1⟩ := idx5 t
  unfold iblk
  rw [View.read_apply]
  show V m c main_v20 _ = V m c main_v20 _
  congr 1
  funext d
  apply Fin.ext
  match d with
  | ⟨0, _⟩ => show win0_5.index t (0 : Fin 2) * 20 + 1 * a.val = a.val; rw [e0]; omega
  | ⟨1, _⟩ => show win0_5.index t (1 : Fin 2) * 1 + 1 * b.val = b.val; rw [e1]; omega

/-- The block of window 6 (the last layer's bias) is its whole array, at every point. -/
theorem res6_blk (c : Dev nD) (t : Fin cfg0.N) (a : Fin 1) (b : Fin 1) :
    (iblk m c 6 t : Vec Ideal S1x1 .f32) (ix2 a b) = b3rArr m c (ix2 a b) := by
  obtain ⟨e0, e1⟩ := idx6 t
  unfold iblk
  rw [View.read_apply]
  show V m c main_v23 _ = V m c main_v23 _
  congr 1
  funext d
  apply Fin.ext
  match d with
  | ⟨0, _⟩ => show win0_6.index t (0 : Fin 2) * 1 + 1 * a.val = a.val; rw [e0]; omega
  | ⟨1, _⟩ => show win0_6.index t (1 : Fin 2) * 1 + 1 * b.val = b.val; rw [e1]; omega

/-! ## One function of the arrays -/

/-- Row `r` of the output: the body's arithmetic on row `r` of the feature matrix and the resident operands. -/
def rowScore (c : Dev nD) (r : Fin 2097152) : EReal :=
  (∑ k : Fin 20, relu ((∑ j : Fin 50, relu ((∑ a : Fin 8, featArr m c (ix2 r a) * w1tArr m c (ix2 a j)) + b1rArr m c (ix2 (0 : Fin 1) j))
      * w2tArr m c (ix2 j k)) + b2rArr m c (ix2 (0 : Fin 1) k)) * w3tArr m c (ix2 k (0 : Fin 1))) + b3rArr m c (ix2 (0 : Fin 1) (0 : Fin 1))

/-- The output array after the run: entry (r, 0) is `rowScore r`. -/
def outArr (c : Dev nD) : S2097152x1.Idx → EReal := fun i => rowScore m c ⟨(i 0).val, (i 0).isLt⟩

/-- The body's stored value at row `p` of point `t`'s block is `rowScore` at row `8192·t + p`. -/
theorem row_eq (c : Dev nD) (t : Fin cfg0.N) (p : Fin 8192) (r : Fin 2097152) (hr : r.val = t.val * 8192 + p.val) :
    k0_pay1 (F := Ideal) (iblk m c 0 t) (iblk m c 1 t) (iblk m c 2 t) (iblk m c 3 t) (iblk m c 4 t) (iblk m c 5 t) (iblk m c 6 t) (ix2 p (0 : Fin 1))
      = rowScore m c r := by
  refine (pay_apply (iblk m c 0 t) (iblk m c 1 t) (iblk m c 2 t) (iblk m c 3 t) (iblk m c 4 t) (iblk m c 5 t) (iblk m c 6 t) p (0 : Fin 1)).trans ?_
  unfold rowScore
  simp only [feat_blk m c t p _ r hr, res1_blk m c t, res2_blk m c t, res3_blk m c t, res4_blk m c t, res5_blk m c t, res6_blk m c t]

/-- WHAT POINT `t` WRITES BACK is block `t` of `outArr`. -/
theorem flushed_eq (c : Dev nD) (t : Fin cfg0.N) :
    (dats m 0 c).flushed 7 t = ((cfg0.win 7).blk t).view.read (Elt Ideal) (outArr m c) := by
  show (cfg0.win 7).cut (grid0.coords t) ((dats m 0 c).after 7 t) = _
  rw [after0_7]
  unfold out0_7
  rw [View.canon_unit_zero hz]
  simp only [View.ld_unit_zero (S := S8192x8) hz, View.ld_unit_zero (S := S8x50) hz, View.ld_unit_zero (S := S1x50) hz,
    View.ld_unit_zero (S := S50x20) hz, View.ld_unit_zero (S := S1x20) hz, View.ld_unit_zero (S := S20x1) hz,
    View.ld_unit_zero (S := S1x1) hz]
  funext y
  have hp : (y 0).val < 8192 := (y 0).isLt
  have hq : (y 1).val < 1 := (y 1).isLt
  have ey : win0_7.xinj (grid0.coords t) y = ix2 (⟨(y 0).val, hp⟩ : Fin 8192) (0 : Fin 1) :=
    funext fun d => match d with
      | ⟨0, _⟩ => rfl
      | ⟨1, _⟩ => Fin.ext (by show (y 1).val = 0; omega)
  have hr : (((cfg0.win 7).blk t).view.emb y 0).val = t.val * 8192 + (y 0).val := by
    show win0_7.index t (0 : Fin 2) * 8192 + 1 * (y 0).val = _
    rw [(idx7 t).1]; omega
  show k0_pay1 (F := Ideal) (iblk m c 0 t) (iblk m c 1 t) (iblk m c 2 t) (iblk m c 3 t) (iblk m c 4 t) (iblk m c 5 t) (iblk m c 6 t)
      (win0_7.xinj (grid0.coords t) y) = rowScore m c ⟨(((cfg0.win 7).blk t).view.emb y 0).val, (((cfg0.win 7).blk t).view.emb y 0).isLt⟩
  rw [ey]
  exact row_eq m c t ⟨(y 0).val, hp⟩ _ hr

/-! ## The blocks tile the array -/

/-- An index of the output array is in point `t`'s block iff each coordinate is in the block's range on its axis. -/
theorem mem_blk (t : Fin cfg0.N) (i : S2097152x1.Idx) :
    i ∈ ((cfg0.win 7).blk t).view.set ↔ ∀ a : Fin 2, win0_7.index t a * S8192x1.size a ≤ (i a).val ∧ (i a).val < win0_7.index t a * S8192x1.size a + S8192x1.size a := by
  show i ∈ ((View.whole main_v24).slice (win0_7.rect t)).set ↔ _
  rw [View.set_slice_whole, Rect.mem_set_unit]
  exact Iff.rfl

/-- Row `r` lies in the block of point `r / 8192`, which is written back. -/
theorem cover (i : S2097152x1.Idx) :
    ∃ t : Fin cfg0.N, (cfg0.win 7).flush t = true ∧ i ∈ ((cfg0.win 7).blk t).view.set := by
  have hi0 : (i 0).val < 2097152 := (i 0).isLt
  have hi1 : (i 1).val < 1 := (i 1).isLt
  have hN : cfg0.N = 256 := N_0
  obtain ⟨t, ht⟩ : ∃ t : Fin cfg0.N, t.val = (i 0).val / 8192 := ⟨⟨(i 0).val / 8192, by rw [hN]; omega⟩, rfl⟩
  obtain ⟨e0, e1⟩ := idx7 t
  refine ⟨t, flush0_7 t, ?_⟩
  rw [mem_blk]
  intro a
  match a with
  | ⟨0, _⟩ => show win0_7.index t (0 : Fin 2) * 8192 ≤ (i 0).val ∧ (i 0).val < win0_7.index t (0 : Fin 2) * 8192 + 8192; rw [e0, ht]; omega
  | ⟨1, _⟩ => show win0_7.index t (1 : Fin 2) * 1 ≤ (i 1).val ∧ (i 1).val < win0_7.index t (1 : Fin 2) * 1 + 1; rw [e1]; omega

/-- THE OUTPUT ARRAY after the run is `outArr`. -/
theorem final (c : Dev nD) : (dats m 0 c).arrAt 7 cfg0.N = outArr m c :=
  (dats m 0 c).arrAt_eq_of_cover 7 (outArr m c) (fun t _ => flushed_eq m c t) (cover)

end Cert.KernelIdeal.Blocks

end
-- ==== Proof.KernelRun.lean ====
/-
  The kernel program's run, read: its result is the network's scores.

  After the run the one-column output array holds, at row `r`, the body's arithmetic on row `r` of the feature
  matrix. With the transposed weights read back as the weights and the bias rows as the biases, that is the
  network (three dense layers, rectified between) on that row. The last host line drops the unit column, so the
  result at sample `r` is the output array at (r, 0).
-/
import proofs.«110660_j790273982929_1_alg».proof.Proof.KernelBlocks
import Idealize.ShloMosaic.Lib.StableHlo.Run

noncomputable section

namespace Cert.KernelIdeal.Scores

open Cert.KernelIdeal Cert.KernelIdeal.Gen Cert.KernelIdeal.Arrays Cert.KernelIdeal.Blocks
open Idealize.ShloMosaic Idealize.ShloMosaic.TcCoe Idealize.SL.Sem Idealize.ShloMosaic.StableHlo Idealize.ShloMosaic.ValueIdx Cert.Mlp

variable (m : (ℓ : Loc nD τ sig) → Buf (Elt Ideal) ℓ) (ρ : Dev nD → PrngReg)

/-- The program's result as a function of its arguments: the scores of the gathered feature matrix. -/
abbrev resultOf (c : Dev nD) : S2097152.Idx → EReal :=
  scores (feat (m ((c : Thread nD τ).loc main_arg0)) (m ((c : Thread nD τ).loc main_arg1)) (m ((c : Thread nD τ).loc main_arg2)) (m ((c : Thread nD τ).loc main_arg3)))
    ((m ((c : Thread nD τ).loc main_arg4)) : S50x8.Idx → EReal) ((m ((c : Thread nD τ).loc main_arg5)) : S50.Idx → EReal) ((m ((c : Thread nD τ).loc main_arg6)) : S20x50.Idx → EReal) ((m ((c : Thread nD τ).loc main_arg7)) : S20.Idx → EReal)
    ((m ((c : Thread nD τ).loc main_arg8)) : S1x20.Idx → EReal) ((m ((c : Thread nD τ).loc main_arg9)) : S1.Idx → EReal)

/-- Row `r` of the output array is the network on row `r` of the feature matrix. -/
theorem rowScore_eq (c : Dev nD) (r : Fin 2097152) : rowScore m c r = resultOf m c (ix1 r) := by
  unfold rowScore
  simp only [w1t_apply, w2t_apply, w3t_apply, b1r_apply, b2r_apply, b3r_apply, V_feat]
  rfl

/-- The result buffer after the last host line: the output array with its unit column dropped. -/
theorem result_eq (c : Dev nD) :
    (Pipeline.afterTail₀ cfgs (dats m) 0 (V0 m) [hostOps1] c main_v25 : S2097152.Idx → EReal) = resultOf m c := by
  unfold Pipeline.afterTail₀
  show StableHlo.after hostOps1 _ (Proc.devRef .tc main_v25) = _
  after_results
  have e : Pipeline.withArrays (cfgs 0).spec c (V0 m c) (fun w => (dats m 0 c).arrAt w (cfgs 0).N) (Proc.devRef .tc main_v24)
      = outArr m c :=
    (Pipeline.withArrays_arr spec0 launch0.win.arr_inj c _ _ 7).trans (final m c)
  funext i
  obtain ⟨r, rfl⟩ : ∃ r : Fin 2097152, i = ix1 r := ⟨i 0, eq_ix1 i⟩
  show shapeCast S2097152 (Pipeline.withArrays (cfgs 0).spec c (V0 m c) (fun w => (dats m 0 c).arrAt w (cfgs 0).N) (Proc.devRef .tc main_v24))
      shapeCasts_S2097152x1_S2097152 (ix1 r) = _
  rw [e]
  refine (shapeCast_apply (outArr m c) shapeCasts_S2097152x1_S2097152 (ix1 r) (ix2 r (0 : Fin 1)) ?_).trans ?_
  · rw [Shape.rowMajor_val_two, Shape.rowMajor_val_one]
    show r.val * 1 + 0 = r.val
    omega
  · exact rowScore_eq m c r

/-- THE RUN: every weakly fair execution ends with the result buffer at the scores and the arguments unchanged. -/
theorem run : θ_run defs (onTc (τ := τ) (main (F := Ideal))) ⟨m, fun _ => 0, ρ⟩ fun r => ∀ c : Dev nD,
      r.2.mem ((c : Thread nD τ).loc main_v25) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨
      ((h c).2 main_v25 (Pipeline.mem_restRefs_of main_v25 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Scores

end
-- ==== Proof.RefScores.lean ====
/-
  The reference computes the network's scores.

  Read one operation at a time, the reference's result at sample `i` is the last dense layer's one unit on the
  rectified second layer on the rectified first layer of row `i` of the feature matrix (the two gathered table
  rows side by side, never opened here). Each `x @ W.T` is a contraction of the sample's row with row `j` of
  `W`: the transpose only swaps the weight's two coordinates back. Each bias is broadcast along the samples, and
  the final reshape drops the unit column.
-/
import proofs.«110660_j790273982929_1_alg».proof.Proof.Gen.ReferenceIdeal.Read
import proofs.«110660_j790273982929_1_alg».proof.Proof.Mlp

noncomputable section

namespace Cert.ReferenceIdeal.Scores

open Cert.ReferenceIdeal Cert.ReferenceIdeal.Read Idealize.ShloMosaic Idealize.ShloMosaic.ValueIdx Cert.Mlp

variable (x0 x1 : (⟨S2097152, .i32⟩ : BufTy).Contents (Elt Ideal)) (x2 : (⟨S611x4, .f32⟩ : BufTy).Contents (Elt Ideal)) (x3 : (⟨S193610x4, .f32⟩ : BufTy).Contents (Elt Ideal)) (x4 : (⟨S50x8, .f32⟩ : BufTy).Contents (Elt Ideal)) (x5 : (⟨S50, .f32⟩ : BufTy).Contents (Elt Ideal)) (x6 : (⟨S20x50, .f32⟩ : BufTy).Contents (Elt Ideal)) (x7 : (⟨S20, .f32⟩ : BufTy).Contents (Elt Ideal)) (x8 : (⟨S1x20, .f32⟩ : BufTy).Contents (Elt Ideal)) (x9 : (⟨S1, .f32⟩ : BufTy).Contents (Elt Ideal))

/-! ## Where each operand is read -/

/-- First layer: the left operand of the contraction is read along the sample's row. -/
theorem feat_idx (r : Fin 2097152) (j : Fin 50) (a : Fin 8) : lidx_main_v16 (ix2 r j) a = ix2 r a :=
  funext fun d => match d with | ⟨0, _⟩ => rfl | ⟨1, _⟩ => rfl
/-- First layer: the transposed weight at (a, j) is the weight at (j, a). -/
theorem w1_idx (r : Fin 2097152) (j : Fin 50) (a : Fin 8) : idx_main_v15 (ridx_main_v16 (ix2 r j) a) = ix2 j a :=
  funext fun d => match d with | ⟨0, _⟩ => rfl | ⟨1, _⟩ => rfl
/-- First layer: the broadcast bias at (r, j) is the bias at j. -/
theorem b1_idx (r : Fin 2097152) (j : Fin 50) : idx_main_v17 (idx_main_v18 (ix2 r j)) = ix1 j :=
  funext fun d => match d with | ⟨0, _⟩ => rfl

theorem h1_idx (r : Fin 2097152) (k : Fin 20) (j : Fin 50) : lidx_main_v22 (ix2 r k) j = ix2 r j :=
  funext fun d => match d with | ⟨0, _⟩ => rfl | ⟨1, _⟩ => rfl
theorem w2_idx (r : Fin 2097152) (k : Fin 20) (j : Fin 50) : idx_main_v21 (ridx_main_v22 (ix2 r k) j) = ix2 k j :=
  funext fun d => match d with | ⟨0, _⟩ => rfl | ⟨1, _⟩ => rfl
theorem b2_idx (r : Fin 2097152) (k : Fin 20) : idx_main_v23 (idx_main_v24 (ix2 r k)) = ix1 k :=
  funext fun d => match d with | ⟨0, _⟩ => rfl

/-- Last layer, through the final reshape: sample `i` of the result reads row `i` of the second hidden layer. -/
theorem h2_idx (r : Fin 2097152) (k : Fin 20) : lidx_main_v28 (idx_main_v32 (ix1 r)) k = ix2 r k :=
  funext fun d => match d with
    | ⟨0, _⟩ => Fin.ext (Nat.div_one _)
    | ⟨1, _⟩ => rfl
theorem w3_idx (r : Fin 2097152) (k : Fin 20) : idx_main_v27 (ridx_main_v28 (idx_main_v32 (ix1 r)) k) = ix2 (0 : Fin 1) k :=
  funext fun d => match d with | ⟨0, _⟩ => rfl | ⟨1, _⟩ => rfl
theorem b3_idx (r : Fin 2097152) : idx_main_v29 (idx_main_v30 (idx_main_v32 (ix1 r))) = ix1 (0 : Fin 1) :=
  funext fun d => match d with | ⟨0, _⟩ => rfl

/-! ## The layers -/

/-- The first hidden layer at sample `r`, unit `j`. -/
theorem hidden1 (r : Fin 2097152) (j : Fin 50) :
    val_main_v20 (F := Ideal) x0 x1 x2 x3 x4 x5 (ix2 r j)
      = relu (dense (fun a => val_main_v14 (F := Ideal) x0 x1 x2 x3 (ix2 r a)) x4 x5 j) := by
  rw [val_main_v20_apply, val_main_v19_apply, val_main_v16_apply, val_main_v18_apply, val_main_v17_apply,
    val_main_call0_v0_apply, val_main_call0_cst_apply]
  simp only [val_main_v15_apply, feat_idx, w1_idx, b1_idx]
  rfl

/-- The second hidden layer at sample `r`, unit `k`. -/
theorem hidden2 (r : Fin 2097152) (k : Fin 20) :
    val_main_v26 (F := Ideal) x0 x1 x2 x3 x4 x5 x6 x7 (ix2 r k)
      = relu (dense (fun j => relu (dense (fun a => val_main_v14 (F := Ideal) x0 x1 x2 x3 (ix2 r a)) x4 x5 j)) x6 x7 k) := by
  rw [val_main_v26_apply, val_main_v25_apply, val_main_v22_apply, val_main_v24_apply, val_main_v23_apply,
    val_main_call1_v0_apply, val_main_call1_cst_apply]
  simp only [val_main_v21_apply, h1_idx, w2_idx, b2_idx, hidden1]
  rfl

/-- THE REFERENCE'S RESULT is the network's scores of the feature matrix. -/
theorem result_eq :
    val_main_v32 (F := Ideal) x0 x1 x2 x3 x4 x5 x6 x7 x8 x9
      = scores (val_main_v14 (F := Ideal) x0 x1 x2 x3) x4 x5 x6 x7 x8 x9 := by
  funext i
  obtain ⟨r, rfl⟩ : ∃ r : Fin 2097152, i = ix1 r := ⟨i 0, eq_ix1 i⟩
  rw [val_main_v32_apply, val_main_v31_apply, val_main_v28_apply, val_main_v30_apply, val_main_v29_apply]
  simp only [val_main_v27_apply, h2_idx, w3_idx, b3_idx, hidden2]
  rfl

end Cert.ReferenceIdeal.Scores

end
-- ==== Proof.lean ====
/-
  A three-layer perceptron on gathered embedding rows: the Pallas kernel against the plain jnp reference.

  Both programs gather, per sample, one 4-wide row of the user table and one of the item table (the same host
  operations, index wrap included) and put them side by side: the 2097152 × 8 feature matrix. The reference then
  computes relu(x·W1ᵀ + b1), relu(·W2ᵀ + b2), ·W3ᵀ + b3 on the whole matrix and drops the unit column. The kernel
  transposes the weights and reshapes the biases on the host, runs the same three layers on blocks of 8192 rows
  (256 grid points, each block written back once), and drops the unit column after the region.

  At the ideal instance a change of float format is the identity and a matrix product into a zero accumulator
  is its plain contraction sum, so both results are, at sample `i`, the network `Cert.Mlp.net` on row `i` of the
  feature matrix, with the weights indexed [unit, input] as given. No algebraic law is needed beyond reading each
  operation at an index: the two sides are the same sums in the same order, so the precondition is never opened.

  The three frames are the generated ones (the reference's is its generated run with the result dropped); the
  idealization rewrote nothing, so `preserves` is trivial.
-/
import proofs.«110660_j790273982929_1_alg».proof.Defs
import proofs.«110660_j790273982929_1_alg».proof.Proof.Gen.Kernel
import proofs.«110660_j790273982929_1_alg».proof.Proof.Gen.Kernel.Skeleton
import proofs.«110660_j790273982929_1_alg».proof.Proof.Gen.Kernel.Launch
import proofs.«110660_j790273982929_1_alg».proof.Proof.Gen.Kernel.Points
import proofs.«110660_j790273982929_1_alg».proof.Proof.Gen.Kernel.Frame
import proofs.«110660_j790273982929_1_alg».proof.Proof.Gen.KernelIdeal
import proofs.«110660_j790273982929_1_alg».proof.Proof.Gen.KernelIdeal.Skeleton
import proofs.«110660_j790273982929_1_alg».proof.Proof.Gen.KernelIdeal.Launch
import proofs.«110660_j790273982929_1_alg».proof.Proof.Gen.KernelIdeal.Points
import proofs.«110660_j790273982929_1_alg».proof.Proof.Gen.KernelIdeal.Frame
import proofs.«110660_j790273982929_1_alg».proof.Proof.Gen.ReferenceIdeal
import proofs.«110660_j790273982929_1_alg».proof.Proof.Gen.ReferenceIdeal.Run
import proofs.«110660_j790273982929_1_alg».proof.Proof.Gen.ReferenceIdeal.Read
import proofs.«110660_j790273982929_1_alg».proof.Proof.Gen.Pre_finite_inputs
import proofs.«110660_j790273982929_1_alg».proof.Proof.KernelRun
import proofs.«110660_j790273982929_1_alg».proof.Proof.RefScores
import Idealize.ShloMosaic.Adequacy
import Idealize.ShloMosaic.Init

noncomputable section

namespace Cert.Proof

open Idealize.ShloMosaic Idealize.SL.Sem

/-- The two programs build the feature matrix by the same operations: one term of the four arguments. -/
theorem feat_eq (users items : (⟨Cert.ReferenceIdeal.S2097152, .i32⟩ : BufTy).Contents (Elt Ideal))
    (eU : (⟨Cert.ReferenceIdeal.S611x4, .f32⟩ : BufTy).Contents (Elt Ideal))
    (eV : (⟨Cert.ReferenceIdeal.S193610x4, .f32⟩ : BufTy).Contents (Elt Ideal)) :
    Cert.ReferenceIdeal.Read.val_main_v14 (F := Ideal) users items eU eV = Cert.KernelIdeal.Arrays.feat users items eU eV := rfl

theorem frame_k : Cert.frame_Kernel := fun m ρ _ => Cert.Kernel.Gen.frame m ρ

theorem frame_ki : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the network's scores of the gathered feature matrix: the kernel's run read
    block by block and through its last host line, the reference's run read one operation at a time; from
    memories that agree on the arguments these are one function of the arguments. -/
theorem algebraic : Cert.algebraic_KernelIdeal_ReferenceIdeal := by
  intro m ρ m' ρ' _ hagree
  refine ⟨fun c => Cert.KernelIdeal.Scores.resultOf m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v32_eq, Cert.ReferenceIdeal.Scores.result_eq, feat_eq,
    e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
